-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1 : Shape := ⟨2, ![2048, 1]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S16384x2048 .f32) (main_arg2 : FVec F S2048x1 .f32) (main_arg3 : FVec F S2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S16384x2048 : Shape := ⟨2, ![16384, 2048]⟩
abbrev S2048x1 : Shape := ⟨2, ![2048, 1]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x1_S1x2048 : S2048x1.ShapeCasts S1x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S16384x2048.size a
  hwx0_5 : ∀ i : grid0.Coords, EltTy.bits .f32 = 32 ∨ (Rect.block (s := S16384x2048) S256x2048.size (cc0_transform_5 i) (hinb0_5 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1 : Shape := ⟨2, ![2048, 1]⟩
abbrev S2048 : Shape := ⟨1, ![2048]⟩
abbrev S16384x1 : Shape := ⟨2, ![16384, 1]⟩
abbrev S_ : Shape := ⟨0, ![]⟩
abbrev S16384 : Shape := ⟨1, ![16384]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S16384x1, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S16384x1_S16384x2048_0_1 : S16384x1.BroadcastsInDim S16384x2048 (![0, 1] : Fin 2 → Fin S16384x2048.rank)
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x1_S16384x1_1_0_0_1_n_n_wf : DotDims.WF S16384x2048 S2048x1 S16384x1 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.RowNorm.lean ====
/-
  The function both programs compute, on the extended reals, one row at a time.

  For a row `a` of `x0`, the matching row `b` of `x1`, the weight column `w`, and the scale `g` and shift `β`
  (all of length 2048):
    gate     s   = Σ_k b k · w k                      (the width-one product `x1 @ weight`, one number per row)
    crossed  y c = a c · s + a c                       (the cross term plus the residual)
    mean     μ   = (Σ_c y c) / 2048
    centred  d c = y c − μ
    variance v   = (Σ_c d c · d c) / 2048
    normRow    c = d c · rsqrt (v + ε) · g c + β c
  with `2048` and `ε` the two f32 literals both programs write (the same words on both sides, never evaluated),
  the quotient `Ideal.div` and `Ideal.rsqrt` the extended reals' own. `crossNorm` lays the rows out over the
  `16384 × 2048` array. No law of arithmetic is needed between the two programs: they are this same tree of
  operations, the kernel on 256-row blocks and the reference on the whole array, so no finiteness is used.
-/
import Idealize.ShloMosaic.PureOps.Ideal
import Idealize.ShloMosaic.Lib.ValueIdx

noncomputable section

namespace Cert.CrossNorm

open Idealize.ShloMosaic Idealize.ShloMosaic.ValueIdx

/-- The row length `2048.0` as the f32 word both programs divide by. -/
def rowLen : EReal := Ideal.ofBits .f32 0x45000000#32

/-- The variance floor `ε` (the f32 nearest `1e-12`) as the word both programs add. -/
def varFloor : EReal := Ideal.ofBits .f32 0x2B8CBCCC#32

/-- The row's gate: the inner product of `x1`'s row with the weight column. -/
def gate (b w : Fin 2048 → EReal) : EReal := ∑ k : Fin 2048, b k * w k

/-- The cross term plus the residual. -/
def crossed (a : Fin 2048 → EReal) (s : EReal) (c : Fin 2048) : EReal := a c * s + a c

/-- A row's mean. -/
def mean (y : Fin 2048 → EReal) : EReal := Ideal.div (∑ c : Fin 2048, y c) rowLen

/-- A row less its mean. -/
def centred (y : Fin 2048 → EReal) (c : Fin 2048) : EReal := y c - mean y

/-- A row's (biased) variance. -/
def variance (y : Fin 2048 → EReal) : EReal := Ideal.div (∑ c : Fin 2048, centred y c * centred y c) rowLen

/-- The layer-normalised row of the crossed row, scaled and shifted. -/
def normRow (a b w g β : Fin 2048 → EReal) (c : Fin 2048) : EReal :=
  centred (crossed a (gate b w)) c * Ideal.rsqrt (variance (crossed a (gate b w)) + varFloor) * g c + β c

/-- The whole result: row `r` of the output is `normRow` of row `r` of `x0` and of `x1`. -/
def crossNorm (x0 x1 : (⟨2, ![16384, 2048]⟩ : Shape).Idx → EReal) (wt : (⟨2, ![2048, 1]⟩ : Shape).Idx → EReal)
    (g β : (⟨1, ![2048]⟩ : Shape).Idx → EReal) : (⟨2, ![16384, 2048]⟩ : Shape).Idx → EReal :=
  fun i => normRow (fun k => x0 (ix2 (i 0) k)) (fun k => x1 (ix2 (i 0) k)) (fun k => wt (ix2 k (0 : Fin 1)))
    (fun k => g (ix1 k)) (fun k => β (ix1 k)) (i 1)

end Cert.CrossNorm

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.KernelRow.lean ====
/-
  The kernel body's value at one element of a 256 × 2048 block: entry (p, q) of what the body stores is `normRow`
  of row p of the two data blocks and of the three one-row parameter blocks, at lane q.

  The body is read in stages, each a vector the body computes and each read at an index:
  the gate (one number per row), the crossed block, the mean column, the centred block, the column of
  reciprocal standard deviations, and the stored block.
-/
import proofs.«109074_j19902878449868_1_alg».proof.Proof.Gen.KernelIdeal.Skeleton
import proofs.«109074_j19902878449868_1_alg».proof.Proof.RowNorm
import proofs.«109074_j19902878449868_1_alg».proof.Proof.LibKeepdimsColumn
import Idealize.ShloMosaic.Lib.ValueLayout

noncomputable section

namespace Cert.CrossNorm

open Idealize.ShloMosaic Idealize.ShloMosaic.ValueIdx Cert.KernelIdeal Cert.KernelIdeal.Gen Cert.KeepdimsColumn

/-- A lane sum of a 256 × 2048 block at row `p` is the sum over that row's 2048 lanes. -/
theorem rowSum (src : FVec Ideal S256x2048 .f32) (hφ : FKind.Formats .f32)
    (hacc : (0x00000000#32 : BitVec 32) = 0x00000000#32) (p : Fin 256) :
    multiReduction .add [1] S256 src 0x00000000#32 reduces_S256x2048_S256 hφ hacc (ix1 p) = ∑ k : Fin 2048, src (ix2 p k) :=
  laneSum_apply src _ _ hφ hacc p

variable (x0 x1 : FVec Ideal S256x2048 .f32) (w g β : FVec Ideal S1x2048 .f32)

/-- Row `p` of a data block, and the one row of a parameter block, as functions of the lane. -/
abbrev rowOf (x : FVec Ideal S256x2048 .f32) (p : Fin 256) : Fin 2048 → EReal := fun k => x (ix2 p k)
abbrev theRow (v : FVec Ideal S1x2048 .f32) : Fin 2048 → EReal := fun k => v (ix2 (0 : Fin 1) k)

/-- The gates of the block's rows. -/
def gateVec : FVec Ideal S256 .f32 :=
  multiReduction .add [1] S256 (mulf x1 (broadcastTo S256x2048 (shapeCast S1x2048 w shapeCasts_S1x2048_S1x2048) broadcasts_S1x2048_S256x2048))
    0x00000000#32 reduces_S256x2048_S256 (.inl rfl) rfl

theorem gateVec_apply (p : Fin 256) : gateVec x1 w (ix1 p) = gate (rowOf x1 p) (theRow w) := by
  unfold gateVec
  refine (rowSum _ _ _ p).trans ?_
  refine Finset.sum_congr rfl fun k _ => ?_
  rw [mulf_apply, broadcastTo_1b_ab_apply, shapeCast_self]

/-- The crossed block. -/
def crossedVec : FVec Ideal S256x2048 .f32 :=
  addf (mulf x0 (broadcastTo S256x2048 (shapeCast S256x1 (gateVec x1 w) shapeCasts_S256_S256x1) broadcasts_S256x1_S256x2048)) x0

theorem crossedVec_apply (p : Fin 256) (c : Fin 2048) :
    crossedVec x0 x1 w (ix2 p c) = crossed (rowOf x0 p) (gate (rowOf x1 p) (theRow w)) c := by
  unfold crossedVec
  rw [addf_apply, mulf_apply, broadcastTo_a1_ab_apply, shapeCast_a_a1_apply, gateVec_apply]
  rfl

/-- The column of row means. -/
def meanVec : FVec Ideal S256x1 .f32 :=
  divf (shapeCast S256x1 (multiReduction .add [1] S256 (crossedVec x0 x1 w) 0x00000000#32 reduces_S256x2048_S256 (.inl rfl) rfl) shapeCasts_S256_S256x1)
    (broadcast S256x1 (Scalar.ofBits .f32 0x45000000#32))

theorem meanVec_apply (p : Fin 256) :
    meanVec x0 x1 w (ix2 p (0 : Fin 1)) = mean (crossed (rowOf x0 p) (gate (rowOf x1 p) (theRow w))) := by
  unfold meanVec
  rw [divf_apply, shapeCast_a_a1_apply]
  refine congrArg (fun s => Ideal.div s _) ?_
  refine (rowSum _ _ _ p).trans ?_
  exact Finset.sum_congr rfl fun c _ => crossedVec_apply x0 x1 w p c

/-- The centred block. -/
def centredVec : FVec Ideal S256x2048 .f32 :=
  subf (crossedVec x0 x1 w) (broadcastTo S256x2048 (meanVec x0 x1 w) broadcasts_S256x1_S256x2048)

theorem centredVec_apply (p : Fin 256) (c : Fin 2048) :
    centredVec x0 x1 w (ix2 p c) = centred (crossed (rowOf x0 p) (gate (rowOf x1 p) (theRow w))) c := by
  unfold centredVec
  rw [subf_apply, broadcastTo_a1_ab_apply, crossedVec_apply, meanVec_apply]
  rfl

/-- The column of reciprocal standard deviations. -/
def invStdVec : FVec Ideal S256x1 .f32 :=
  rsqrt (addf (divf (shapeCast S256x1 (multiReduction .add [1] S256 (mulf (centredVec x0 x1 w) (centredVec x0 x1 w)) 0x00000000#32 reduces_S256x2048_S256 (.inl rfl) rfl) shapeCasts_S256_S256x1)
      (broadcast S256x1 (Scalar.ofBits .f32 0x45000000#32)))
    (broadcast S256x1 (Scalar.ofBits .f32 0x2B8CBCCC#32)))

theorem invStdVec_apply (p : Fin 256) :
    invStdVec x0 x1 w (ix2 p (0 : Fin 1))
      = Ideal.rsqrt (variance (crossed (rowOf x0 p) (gate (rowOf x1 p) (theRow w))) + varFloor) := by
  unfold invStdVec
  show Ideal.rsqrt (Ideal.div (shapeCast S256x1 _ shapeCasts_S256_S256x1 (ix2 p (0 : Fin 1))) _ + _) = _
  rw [shapeCast_a_a1_apply]
  refine congrArg (fun s => Ideal.rsqrt (Ideal.div s _ + _)) ?_
  refine (rowSum _ _ _ p).trans ?_
  refine Finset.sum_congr rfl fun c _ => ?_
  rw [mulf_apply, centredVec_apply]

/-- The body's stored value is these stages composed. -/
theorem body_eq : k0_pay1 (F := Ideal) x0 x1 w g β
    = addf (mulf (mulf (centredVec x0 x1 w) (broadcastTo S256x2048 (invStdVec x0 x1 w) broadcasts_S256x1_S256x2048))
        (broadcastTo S256x2048 (shapeCast S1x2048 g shapeCasts_S1x2048_S1x2048) broadcasts_S1x2048_S256x2048))
      (broadcastTo S256x2048 (shapeCast S1x2048 β shapeCasts_S1x2048_S1x2048) broadcasts_S1x2048_S256x2048) := rfl

/-- ENTRY (p, q) OF THE STORED BLOCK is the normalised crossed row `p` at lane `q`. -/
theorem body_apply (p : Fin 256) (q : Fin 2048) :
    k0_pay1 (F := Ideal) x0 x1 w g β (ix2 p q) = normRow (rowOf x0 p) (rowOf x1 p) (theRow w) (theRow g) (theRow β) q := by
  rw [body_eq, addf_apply, mulf_apply, mulf_apply, broadcastTo_a1_ab_apply, broadcastTo_1b_ab_apply, broadcastTo_1b_ab_apply,
    shapeCast_self, shapeCast_self, centredVec_apply, invStdVec_apply]
  rfl

end Cert.CrossNorm

end
-- ==== Proof.KernelArray.lean ====
/-
  From blocks to the array. Grid point t of the 64 handles rows 256·t … 256·t + 255: it reads those rows of x0 and
  x1 and the one row of each of the three parameter arrays (the weight column, the scale and the shift, each
  reshaped to a single row by the host before the launch), and writes back those rows of the output. So what
  point t writes back is block t of `crossNorm` of the argument arrays; the 64 blocks tile the output, which
  therefore ends holding `crossNorm` of the arguments.
-/
import proofs.«109074_j19902878449868_1_alg».proof.Proof.Gen.KernelIdeal.Value
import proofs.«109074_j19902878449868_1_alg».proof.Proof.KernelRow
import Idealize.ShloMosaic.Lib.StableHlo.Run
import Idealize.ShloMosaic.Lib.ValueLayout

noncomputable section

namespace Cert.CrossNorm.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.CrossNorm

variable (m : (ℓ : Loc nD τ sig) → Buf (Elt Ideal) ℓ) (ρ : Dev nD → PrngReg)

/-! ## The parameter rows the host lays out before the launch -/

/-- The weight column `[2048, 1]` reshaped to one row. -/
theorem weightRow_eq (c : Dev nD) :
    (V m c main_v0 : S1x2048.Idx → EReal) = shapeCast S1x2048 (m ((c : Thread nD τ).loc main_arg2)) shapeCasts_S2048x1_S1x2048 := by
  dsimp only [Gen.V, Gen.hostOps0]; after_results; rfl

theorem scaleRow_eq (c : Dev nD) :
    (V m c main_v1 : S1x2048.Idx → EReal) = shapeCast S1x2048 (m ((c : Thread nD τ).loc main_arg3)) shapeCasts_S2048_S1x2048 := by
  dsimp only [Gen.V, Gen.hostOps0]; after_results; rfl

theorem shiftRow_eq (c : Dev nD) :
    (V m c main_v2 : S1x2048.Idx → EReal) = shapeCast S1x2048 (m ((c : Thread nD τ).loc main_arg4)) shapeCasts_S2048_S1x2048 := by
  dsimp only [Gen.V, Gen.hostOps0]; after_results; rfl

theorem weightRow_apply (c : Dev nD) (k : Fin 2048) :
    (V m c main_v0 : S1x2048.Idx → EReal) (ix2 (0 : Fin 1) k)
      = (m ((c : Thread nD τ).loc main_arg2) : S2048x1.Idx → EReal) (ix2 k (0 : Fin 1)) := by
  rw [weightRow_eq]
  refine shapeCast_apply (s := S2048x1) (t := S1x2048) _ _ (ix2 (0 : Fin 1) k) (ix2 k (0 : Fin 1)) ?_
  rw [Shape.rowMajor_val_two, Shape.rowMajor_val_two]
  show k.val * 1 + 0 = 0 * 2048 + k.val
  omega

theorem scaleRow_apply (c : Dev nD) (k : Fin 2048) :
    (V m c main_v1 : S1x2048.Idx → EReal) (ix2 (0 : Fin 1) k) = (m ((c : Thread nD τ).loc main_arg3) : S2048.Idx → EReal) (ix1 k) := by
  rw [scaleRow_eq]
  exact shapeCast_a_1a_apply _ _ _ _

theorem shiftRow_apply (c : Dev nD) (k : Fin 2048) :
    (V m c main_v2 : S1x2048.Idx → EReal) (ix2 (0 : Fin 1) k) = (m ((c : Thread nD τ).loc main_arg4) : S2048.Idx → EReal) (ix1 k) := by
  rw [shiftRow_eq]
  exact shapeCast_a_1a_apply _ _ _ _

/-! ## Where each window's block sits at a grid point -/

/-- Decided over the 64 points: the two data windows move with the output window down the rows and stay at lane
    block 0; the three parameter windows stay at their one block; the output's row block index is below 64. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 63 ∧ win0_5.index t (1 : Fin 2) = 0 :=
  (by decide +kernel : ∀ t : Fin grid0.N, _)

/-- Every one of the 64 row blocks is some point's. -/
theorem index_onto : ∀ b : Fin 64, ∃ t : Fin cfg0.N, win0_5.index t = ![b.val, 0] :=
  (by decide +kernel : ∀ b : Fin 64, ∃ t : Fin grid0.N, win0_5.index t = ![b.val, 0])

theorem zero_offsets : (![0, 0] : Fin 2 → Nat) = fun _ => 0 := funext fun a => by fin_cases a <;> rfl

/-- Row `p` of the first data window's block at point `t` is row `256·(block index) + p` of `x0`. -/
theorem dataBlock0_apply (c : Dev nD) (t : Fin cfg0.N) (p : Fin 256) (k : Fin 2048) (r : Fin 16384)
    (hr : r.val = win0_5.index t (0 : Fin 2) * 256 + p.val) :
    (iblk m c 0 t : Vec Ideal S256x2048 .f32) (ix2 p k) = (V m c main_arg0 : S16384x2048.Idx → EReal) (ix2 r k) := by
  obtain ⟨e0, e1, -⟩ := index_facts t
  show V m c main_arg0 (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The same for `x1`. -/
theorem dataBlock1_apply (c : Dev nD) (t : Fin cfg0.N) (p : Fin 256) (k : Fin 2048) (r : Fin 16384)
    (hr : r.val = win0_5.index t (0 : Fin 2) * 256 + p.val) :
    (iblk m c 1 t : Vec Ideal S256x2048 .f32) (ix2 p k) = (V m c main_arg1 : S16384x2048.Idx → EReal) (ix2 r k) := by
  obtain ⟨-, -, e0, e1, -⟩ := index_facts t
  show V m c main_arg1 (((cfg0.win 1).blk t).view.emb (ix2 p k)) = _
  refine congrArg _ (funext fun a => Fin.ext ?_)
  match a with
  | ⟨0, _⟩ => show win0_1.index t (0 : Fin 2) * 256 + 1 * p.val = r.val; omega
  | ⟨1, _⟩ => show win0_1.index t (1 : Fin 2) * 2048 + 1 * k.val = k.val; omega

/-- Each parameter window's block is its whole one-row array, at every point. -/
theorem weightBlock_apply (c : Dev nD) (t : Fin cfg0.N) (k : Fin 2048) :
    (iblk m c 2 t : Vec Ideal S1x2048 .f32) (ix2 (0 : Fin 1) k) = (V m c main_v0 : S1x2048.Idx → EReal) (ix2 (0 : Fin 1) k) := by
  obtain ⟨-, -, -, -, e0, e1, -⟩ := index_facts t
  show V m c main_v0 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega

theorem scaleBlock_apply (c : Dev nD) (t : Fin cfg0.N) (k : Fin 2048) :
    (iblk m c 3 t : Vec Ideal S1x2048 .f32) (ix2 (0 : Fin 1) k) = (V m c main_v1 : S1x2048.Idx → EReal) (ix2 (0 : Fin 1) k) := by
  obtain ⟨-, -, -, -, -, -, e0, e1, -⟩ := index_facts t
  show V m c main_v1 (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

theorem shiftBlock_apply (c : Dev nD) (t : Fin cfg0.N) (k : Fin 2048) :
    (iblk m c 4 t : Vec Ideal S1x2048 .f32) (ix2 (0 : Fin 1) k) = (V m c main_v2 : S1x2048.Idx → EReal) (ix2 (0 : Fin 1) k) := by
  obtain ⟨-, -, -, -, -, -, -, -, e0, e1, -⟩ := index_facts t
  show V m c main_v2 (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

/-! ## One stored element, over blocks and arrays as variables -/

/-- If row `p` of the two data blocks is row `r` of the two data arrays and the parameter blocks' one row is the
    weight column, the scale and the shift, then entry `(p, q)` of the stored block is entry `(r, q)` of `crossNorm`. -/
theorem stored_apply (A0 A1 : S16384x2048.Idx → EReal) (wt : S2048x1.Idx → EReal) (gs bs : S2048.Idx → EReal)
    (B0 B1 : FVec Ideal S256x2048 .f32) (Bw Bg Bb : FVec Ideal S1x2048 .f32) (r : Fin 16384) (p : Fin 256) (q : Fin 2048)
    (h0 : ∀ k : Fin 2048, B0 (ix2 p k) = A0 (ix2 r k)) (h1 : ∀ k : Fin 2048, B1 (ix2 p k) = A1 (ix2 r k))
    (hw : ∀ k : Fin 2048, Bw (ix2 (0 : Fin 1) k) = wt (ix2 k (0 : Fin 1)))
    (hg : ∀ k : Fin 2048, Bg (ix2 (0 : Fin 1) k) = gs (ix1 k)) (hb : ∀ k : Fin 2048, Bb (ix2 (0 : Fin 1) k) = bs (ix1 k)) :
    k0_pay1 (F := Ideal) B0 B1 Bw Bg Bb (ix2 p q) = crossNorm A0 A1 wt gs bs (ix2 r q) := by
  rw [body_apply]
  show normRow (rowOf B0 p) (rowOf B1 p) (theRow Bw) (theRow Bg) (theRow Bb) q
    = normRow (fun k => A0 (ix2 r k)) (fun k => A1 (ix2 r k)) (fun k => wt (ix2 k (0 : Fin 1))) (fun k => gs (ix1 k)) (fun k => bs (ix1 k)) q
  rw [show rowOf B0 p = fun k => A0 (ix2 r k) from funext h0, show rowOf B1 p = fun k => A1 (ix2 r k) from funext h1,
    show theRow Bw = fun k => wt (ix2 k (0 : Fin 1)) from funext hw, show theRow Bg = fun k => gs (ix1 k) from funext hg,
    show theRow Bb = fun k => bs (ix1 k) from funext hb]

/-! ## What a point writes back, the cover, the array -/

/-- The kernel's result: `crossNorm` of the argument arrays as launched. -/
abbrev result (c : Dev nD) : S16384x2048.Idx → EReal :=
  crossNorm (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S256x2048) zero_offsets, View.ld_unit_zero (S := S1x2048) zero_offsets]
  obtain ⟨-, -, -, -, -, -, -, -, -, -, hb, e1⟩ := index_facts t
  funext j
  have hj0 : (j 0).val < 256 := (j 0).isLt
  have hj1 : (j 1).val < 2048 := (j 1).isLt
  show k0_pay1 (F := Ideal) (iblk m c 0 t) (iblk m c 1 t) (iblk m c 2 t) (iblk m c 3 t) (iblk m c 4 t) j
    = result m c (((cfg0.win 5).blk t).view.emb j)
  have hemb : ((cfg0.win 5).blk t).view.emb j
      = (ix2 (⟨win0_5.index t (0 : Fin 2) * 256 + (j 0).val, by omega⟩ : Fin 16384) (⟨(j 1).val, hj1⟩ : Fin 2048) : S16384x2048.Idx) := by
    funext a; apply Fin.ext
    match a with
    | ⟨0, _⟩ => show win0_5.index t (0 : Fin 2) * 256 + 1 * (j 0).val = win0_5.index t (0 : Fin 2) * 256 + (j 0).val; omega
    | ⟨1, _⟩ => show win0_5.index t (1 : Fin 2) * 2048 + 1 * (j 1).val = (j 1).val; omega
  have hjj : j = (ix2 (⟨(j 0).val, hj0⟩ : Fin 256) (⟨(j 1).val, hj1⟩ : Fin 2048) : S256x2048.Idx) := by
    funext a; apply Fin.ext
    match a with
    | ⟨0, _⟩ => rfl
    | ⟨1, _⟩ => rfl
  rw [hemb]
  refine (congrArg (k0_pay1 (F := Ideal) (iblk m c 0 t) (iblk m c 1 t) (iblk m c 2 t) (iblk m c 3 t) (iblk m c 4 t)) hjj).trans ?_
  refine stored_apply _ _ _ _ _ _ _ _ _ _ _ _ _ (fun k => ?_) (fun k => ?_) (fun k => ?_) (fun k => ?_) (fun k => ?_)
  · exact (dataBlock0_apply m c t _ k _ rfl).trans (congrFun (V_main_arg0 m c) _)
  · exact (dataBlock1_apply m c t _ k _ rfl).trans (congrFun (V_main_arg1 m c) _)
  · exact (weightBlock_apply m c t k).trans (weightRow_apply m c k)
  · exact (scaleBlock_apply m c t k).trans (scaleRow_apply m c k)
  · exact (shiftBlock_apply m c t k).trans (shiftRow_apply m c k)

/-- An index of the output is in point `t`'s block iff each coordinate is in the block's range on its axis. -/
theorem mem_block (t : Fin cfg0.N) (i : S16384x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v3).slice (win0_5.rect t)).set ↔ _
  rw [View.set_slice_whole, Rect.mem_set_unit]
  exact Iff.rfl

/-- Every output index is in the block of the point that handles its row block `row / 256`. -/
theorem covered (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := index_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-- THE OUTPUT ARRAY after the run is the result. -/
theorem final (c : Dev nD) : (dats m 0 c).arrAt 5 cfg0.N = result m c :=
  (dats m 0 c).arrAt_eq_of_cover 5 (result m c) (fun t _ => flushed_eq m c t) covered

/-- The kernel's run, read: the output at `crossNorm` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.CrossNorm.Kernel

end
-- ==== Proof.ReferenceRow.lean ====
/-
  The reference, read at one element: entry (r, c) of its result is `normRow` of row r of `x0` and `x1`, of the
  weight column, and of the scale and shift vectors, at lane c. The host program is read stage by stage: the
  width-one product, the crossed array, the mean column, the centred array, the variance column and its
  reciprocal root, and the result. Each host sum starts from the zero word, which is the extended real 0.
-/
import proofs.«109074_j19902878449868_1_alg».proof.Proof.Gen.ReferenceIdeal.Read
import proofs.«109074_j19902878449868_1_alg».proof.Proof.RowNorm

noncomputable section

namespace Cert.CrossNorm.Reference

open Idealize.ShloMosaic Idealize.ShloMosaic.ValueIdx Cert.ReferenceIdeal Cert.ReferenceIdeal.Read Cert.CrossNorm

variable (x0 x1 : (⟨S16384x2048, .f32⟩ : BufTy).Contents (Elt Ideal)) (x2 : (⟨S2048x1, .f32⟩ : BufTy).Contents (Elt Ideal))
  (x3 x4 : (⟨S2048, .f32⟩ : BufTy).Contents (Elt Ideal))

/-- Row `r` of a data array, and the weight column, as functions of the lane. -/
abbrev rowOf (x : (⟨S16384x2048, .f32⟩ : BufTy).Contents (Elt Ideal)) (r : Fin 16384) : Fin 2048 → EReal := fun k => x (ix2 r k)
abbrev colOf (x : (⟨S2048x1, .f32⟩ : BufTy).Contents (Elt Ideal)) : Fin 2048 → EReal := fun k => x (ix2 k (0 : Fin 1))

/-- The crossed row `r` as the reference forms it. -/
abbrev crossedRow (r : Fin 16384) : Fin 2048 → EReal := crossed (rowOf x0 r) (gate (rowOf x1 r) (colOf x2))

theorem product_apply (r : Fin 16384) : val_main_v0 (F := Ideal) x1 x2 (ix2 r (0 : Fin 1)) = gate (rowOf x1 r) (colOf x2) := by
  rw [val_main_v0_apply]
  refine Finset.sum_congr rfl fun k _ => ?_
  have el : lidx_main_v0 (ix2 r (0 : Fin 1)) k = ix2 r k :=
    funext fun a => Fin.ext (by match a with | ⟨0, _⟩ => rfl | ⟨1, _⟩ => rfl)
  have er : ridx_main_v0 (ix2 r (0 : Fin 1)) k = ix2 k (0 : Fin 1) :=
    funext fun a => Fin.ext (by match a with | ⟨0, _⟩ => rfl | ⟨1, _⟩ => rfl)
  rw [el, er]

theorem crossed_apply (r : Fin 16384) (c : Fin 2048) : val_main_v3 (F := Ideal) x0 x1 x2 (ix2 r c) = crossedRow x0 x1 x2 r c := by
  rw [val_main_v3_apply, val_main_v2_apply, val_main_v1_apply]
  have e : idx_main_v1 (ix2 r c) = ix2 r (0 : Fin 1) :=
    funext fun a => Fin.ext (by match a with | ⟨0, _⟩ => rfl | ⟨1, _⟩ => rfl)
  rw [e, product_apply]
  rfl

theorem mean_apply (r : Fin 16384) : val_main_v7 (F := Ideal) x0 x1 x2 (ix2 r (0 : Fin 1)) = mean (crossedRow x0 x1 x2 r) := by
  rw [val_main_v7_apply, val_main_v5_apply, val_main_v4_apply, val_main_v6_apply, val_main_cst_0_apply, val_main_cst_apply]
  show Ideal.div (Ideal.ofBits .f32 0x00000000#32 + _) (Ideal.ofBits .f32 0x45000000#32) = _
  rw [Ideal.ofBits_zero_f32, zero_add]
  refine congrArg (fun s => Ideal.div s _) ?_
  refine Finset.sum_congr rfl fun k _ => ?_
  have e : idx_main_v4 (idx_main_v5 (ix2 r (0 : Fin 1))) k = ix2 r k :=
    funext fun a => Fin.ext (by match a with | ⟨0, _⟩ => rfl | ⟨1, _⟩ => rfl)
  rw [e, crossed_apply]

/-- The reference centres the crossed array twice (once under the variance, once under the result): both
    stages read the same. -/
theorem centred_apply (r : Fin 16384) (c : Fin 2048) :
    val_main_v9 (F := Ideal) x0 x1 x2 (ix2 r c) = centred (crossedRow x0 x1 x2 r) c := by
  rw [val_main_v9_apply, val_main_v8_apply]
  have e : idx_main_v8 (ix2 r c) = ix2 r (0 : Fin 1) :=
    funext fun a => Fin.ext (by match a with | ⟨0, _⟩ => rfl | ⟨1, _⟩ => rfl)
  rw [e, mean_apply, crossed_apply]
  rfl

theorem centred_apply' (r : Fin 16384) (c : Fin 2048) :
    val_main_v16 (F := Ideal) x0 x1 x2 (ix2 r c) = centred (crossedRow x0 x1 x2 r) c := by
  rw [val_main_v16_apply, val_main_v15_apply]
  have e : idx_main_v15 (ix2 r c) = ix2 r (0 : Fin 1) :=
    funext fun a => Fin.ext (by match a with | ⟨0, _⟩ => rfl | ⟨1, _⟩ => rfl)
  rw [e, mean_apply, crossed_apply]
  rfl

theorem variance_apply (r : Fin 16384) : val_main_v14 (F := Ideal) x0 x1 x2 (ix2 r (0 : Fin 1)) = variance (crossedRow x0 x1 x2 r) := by
  rw [val_main_v14_apply, val_main_v12_apply, val_main_v11_apply, val_main_v13_apply, val_main_cst_2_apply, val_main_cst_1_apply]
  show Ideal.div (Ideal.ofBits .f32 0x00000000#32 + _) (Ideal.ofBits .f32 0x45000000#32) = _
  rw [Ideal.ofBits_zero_f32, zero_add]
  refine congrArg (fun s => Ideal.div s _) ?_
  refine Finset.sum_congr rfl fun k _ => ?_
  have e : idx_main_v11 (idx_main_v12 (ix2 r (0 : Fin 1))) k = ix2 r k :=
    funext fun a => Fin.ext (by match a with | ⟨0, _⟩ => rfl | ⟨1, _⟩ => rfl)
  rw [e, val_main_v10_apply, centred_apply]
  rfl

theorem invStd_apply (r : Fin 16384) :
    val_main_v19 (F := Ideal) x0 x1 x2 (ix2 r (0 : Fin 1)) = Ideal.rsqrt (variance (crossedRow x0 x1 x2 r) + varFloor) := by
  rw [val_main_v19_apply, val_main_v18_apply, val_main_v17_apply, val_main_cst_3_apply, variance_apply]
  rfl

/-- THE REFERENCE'S RESULT is `crossNorm` of the arguments. -/
theorem result_eq : val_main_v27 (F := Ideal) x0 x1 x2 x3 x4 = crossNorm x0 x1 x2 x3 x4 := by
  funext i
  obtain ⟨r, c, rfl⟩ : ∃ (r : Fin 16384) (c : Fin 2048), i = ix2 r c := ⟨i 0, i 1, eq_ix2 i⟩
  rw [val_main_v27_apply, val_main_v24_apply, val_main_v21_apply, val_main_v20_apply, val_main_v23_apply, val_main_v22_apply,
    val_main_v26_apply, val_main_v25_apply, centred_apply']
  have e20 : idx_main_v20 (ix2 r c) = ix2 r (0 : Fin 1) :=
    funext fun a => Fin.ext (by match a with | ⟨0, _⟩ => rfl | ⟨1, _⟩ => rfl)
  have e23 : idx_main_v22 (idx_main_v23 (ix2 r c)) = ix1 c :=
    funext fun a => Fin.ext (by match a with | ⟨0, _⟩ => rfl)
  have e26 : idx_main_v25 (idx_main_v26 (ix2 r c)) = ix1 c :=
    funext fun a => Fin.ext (by match a with | ⟨0, _⟩ => rfl)
  rw [e20, e23, e26, invStd_apply]
  rfl

end Cert.CrossNorm.Reference

end
-- ==== Proof.lean ====
/-
  The cross layer followed by a layer normalisation: out = LayerNorm(x0 · (x1 @ weight) + x0) · γ + β over
  x0, x1 : f32[16384, 2048], weight : f32[2048, 1], γ, β : f32[2048], returned beside x0 itself.

  On the extended reals both programs are ONE tree of operations per row (Proof/RowNorm.lean, `normRow`): the gate
  s = Σ_k x1[r,k]·weight[k], the crossed row y = x0[r,·]·s + x0[r,·], its mean μ = (Σ y)/2048, the centred row
  d = y − μ, the variance v = (Σ d²)/2048, and d · rsqrt(v + ε) · γ + β. The kernel takes the gate as a lane sum of
  x1 · (the weight column laid out as a row) where the reference takes a width-one matrix product: the same sum over
  k. The kernel works on 64 blocks of 256 whole rows, so every row's sums are inside one block; the reference works
  on the whole array. The two literals (2048 and ε) are the same f32 words on both sides. No law of arithmetic
  beyond 0 + x = x (the host sums start from the zero word) joins the two sides, so the inputs' finiteness is
  never used.

  Proof/KernelRow.lean reads the kernel body's stored block at an element; Proof/KernelArray.lean carries it from
  blocks to the whole output array over the generated blockwise run; Proof/ReferenceRow.lean reads the reference's
  generated run at an element. The three frames are the generated ones (the reference's is its run with the result
  dropped); the idealization rewrote nothing, so `preserves` is trivial.
-/
import proofs.«109074_j19902878449868_1_alg».proof.Defs
import proofs.«109074_j19902878449868_1_alg».proof.Proof.Gen.Kernel
import proofs.«109074_j19902878449868_1_alg».proof.Proof.Gen.Kernel.Skeleton
import proofs.«109074_j19902878449868_1_alg».proof.Proof.Gen.Kernel.Launch
import proofs.«109074_j19902878449868_1_alg».proof.Proof.Gen.Kernel.Points
import proofs.«109074_j19902878449868_1_alg».proof.Proof.Gen.Kernel.Frame
import proofs.«109074_j19902878449868_1_alg».proof.Proof.Gen.KernelIdeal
import proofs.«109074_j19902878449868_1_alg».proof.Proof.Gen.KernelIdeal.Skeleton
import proofs.«109074_j19902878449868_1_alg».proof.Proof.Gen.KernelIdeal.Launch
import proofs.«109074_j19902878449868_1_alg».proof.Proof.Gen.KernelIdeal.Points
import proofs.«109074_j19902878449868_1_alg».proof.Proof.Gen.KernelIdeal.Frame
import proofs.«109074_j19902878449868_1_alg».proof.Proof.Gen.ReferenceIdeal
import proofs.«109074_j19902878449868_1_alg».proof.Proof.Gen.Pre_finite_inputs
import proofs.«109074_j19902878449868_1_alg».proof.Proof.Gen.KernelIdeal.Value
import proofs.«109074_j19902878449868_1_alg».proof.Proof.Gen.ReferenceIdeal.Run
import proofs.«109074_j19902878449868_1_alg».proof.Proof.Gen.ReferenceIdeal.Read
import proofs.«109074_j19902878449868_1_alg».proof.Proof.KernelArray
import proofs.«109074_j19902878449868_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both runs end with x0 as launched and the second result at `crossNorm` of the arguments: the kernel's output
    array block by block, the reference's last stage element by element. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.CrossNorm.Kernel.result m c, ?_, ?_⟩
  · refine (θ_run Cert.KernelIdeal.defs _ _).mono (fun r h c => ?_) (Cert.CrossNorm.Kernel.run m ρ)
    obtain ⟨hv, h0, h1, h2, h3, h4⟩ := h c
    exact ⟨h0, hv, h0, h1, h2, h3, h4⟩
  · refine (θ_run Cert.ReferenceIdeal.defs _ _).mono (fun r h c => ?_) (Cert.ReferenceIdeal.Value.run (F := Ideal) m' ρ')
    obtain ⟨h0, hv, k0, k1, k2, k3, k4⟩ := h c
    obtain ⟨a0, a1, a2, a3, a4⟩ := hagree c
    refine ⟨h0.trans a0, hv.trans ?_, k0, k1, k2, k3, k4⟩
    rw [Cert.ReferenceIdeal.Read.val_main_v27_eq, Cert.CrossNorm.Reference.result_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
